-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) (main_arg1 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S1024x256 : Shape := ⟨2, ![1024, 256]⟩
abbrev S1024x1024 : Shape := ⟨2, ![1024, 1024]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩

abbrev nBuf : Space → Nat
  | .hbm => 3
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x1024, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x256.size a
  hwx0_0 : ∀ i : grid0.Coords, EltTy.bits .f32 = 32 ∨ (Rect.block (s := S1024x256) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x256.size a
  hwx0_1 : ∀ i : grid0.Coords, EltTy.bits .f32 = 32 ∨ (Rect.block (s := S1024x256) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .f32 = 32 ∨ (Rect.block (s := S1024x1024) S128x128.size (cc0_transform_2 i) (hinb0_2 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x256 : Shape := ⟨2, ![1024, 256]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S_ : Shape := ⟨0, ![]⟩
abbrev S1024x1024 : Shape := ⟨2, ![1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x1x256, .f32⟩
  | .hbm, ⟨3, _⟩ => ⟨S1x1024x256, .f32⟩
  | .hbm, ⟨4, _⟩ => ⟨S1024x1024x256, .f32⟩
  | .hbm, ⟨5, _⟩ => ⟨S1024x1024x256, .f32⟩
  | .hbm, ⟨6, _⟩ => ⟨S1024x1024x256, .f32⟩
  | .hbm, ⟨7, _⟩ => ⟨S_, .f32⟩
  | .hbm, ⟨8, _⟩ => ⟨S1024x1024, .f32⟩
  | .hbm, ⟨9, _⟩ => ⟨S1024x1024x256, .f32⟩
  | .hbm, ⟨10, _⟩ => ⟨S1024x1024x256, .f32⟩
  | .hbm, ⟨11, _⟩ => ⟨S1024x1024x256, .f32⟩
  | .hbm, ⟨12, _⟩ => ⟨S_, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  bcast_S_S1024x1024 : S_.BroadcastsInDim S1024x1024 (![] : Fin 0 → Fin S1024x1024.rank)

variable [Facts₀]

class Facts : Prop extends Facts₀ where

variable [Facts]
-- ==== Proof.RuzickaPieces.lean ====
/-
  What one run of the kernel body leaves behind, as terms of the tiles it loaded.

  At a grid point whose feature step is 0 the body stores the zero tile into both accumulators, reads it
  back, and stores the accumulated tile over it: the later store covers the buffer, and its load of the
  buffer reads the zero tile the earlier store left.  At a point whose feature step is 1 the body adds onto
  what the point before left, then reads both accumulators back and stores their quotient into the output
  tile.  Each buffer is stored whole, so what it holds afterwards is the last store's value.
-/
import proofs.«121181_j78718160601148_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Tiles

open Cert.KernelIdeal Cert.KernelIdeal.Gen

variable {F : FTy → Type} [FloatOps F]

/-- The offsets of a store or load of a whole tile are zero. -/
theorem offs_zero : (![0, 0] : Fin 2 → Nat) = fun _ => 0 := funext fun a => by fin_cases a <;> rfl

/-- Feature step 0 leaves the first accumulator at the zero tile plus this step's sums of the smaller entries. -/
theorem firstStep_minAcc (c : Dev nD) (i : grid0.Coords) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S128x128 .f32) (h7 : a7.IsWhole) (hc0 : cond0_0 i) (hc1 : ¬cond0_1 i)
    (x0 x1 : Vec F S128x128 .f32) :
    sout0_A_0 c i a3 h3 a4 h4 a5 h5 a6 h6 a7 h7 hc0 hc1 x0 x1 = k0_pay5 x0 x1 (k0_pay1 (F := F)) := by
  unfold sout0_A_0
  rw [View.read_writes_eq_canon _ _ _ (scover0_A_0 c i a3 h3 a4 h4 a5 h5 a6 h6 a7 h7 hc0 hc1 x0 x1)]
  unfold kernelRun0_A
  dsimp only
  sl_unfold_words
  rw [View.canon_cons_unit_zero (S := S128x128) offs_zero]
  simp only [View.readAt_eq_ld, h3.read_unread, h4.read_unread, View.ld_unit_zero (S := S128x128) offs_zero,
    View.readCov_unit_zero (S := S128x128) _ offs_zero]

/-- Feature step 0 leaves the second accumulator at the zero tile plus this step's sums of the larger entries. -/
theorem firstStep_maxAcc (c : Dev nD) (i : grid0.Coords) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S128x128 .f32) (h7 : a7.IsWhole) (hc0 : cond0_0 i) (hc1 : ¬cond0_1 i)
    (x0 x1 : Vec F S128x128 .f32) :
    sout0_A_1 c i a3 h3 a4 h4 a5 h5 a6 h6 a7 h7 hc0 hc1 x0 x1 = k0_pay6 x0 x1 (k0_pay2 (F := F)) := by
  unfold sout0_A_1
  rw [View.read_writes_eq_canon _ _ _ (scover0_A_1 c i a3 h3 a4 h4 a5 h5 a6 h6 a7 h7 hc0 hc1 x0 x1)]
  unfold kernelRun0_A
  dsimp only
  sl_unfold_words
  rw [View.canon_cons_unit_zero (S := S128x128) offs_zero]
  simp only [View.readAt_eq_ld, h3.read_unread, h4.read_unread, View.ld_unit_zero (S := S128x128) offs_zero,
    View.readCov_unit_zero (S := S128x128) _ offs_zero]

/-- Feature step 1 leaves in the output tile the quotient of the two accumulators after this step's sums were
    added onto what the step before left in them (`xs0`, `xs1`). -/
theorem lastStep_tile (c : Dev nD) (i : grid0.Coords) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S128x128 .f32) (h7 : a7.IsWhole) (hc0 : ¬cond0_0 i) (hc1 : cond0_1 i)
    (x0 x1 xs0 xs1 : Vec F S128x128 .f32) :
    out0_B_2 c i a3 h3 a4 h4 a5 h5 a6 h6 a7 h7 hc0 hc1 x0 x1 xs0 xs1 = k0_pay7 (k0_pay5 x0 x1 xs0) (k0_pay6 x0 x1 xs1) := by
  unfold out0_B_2
  rw [View.read_writes_eq_canon _ _ _ (cover0_B_2 c i a3 h3 a4 h4 a5 h5 a6 h6 a7 h7 hc0 hc1 x0 x1 xs0 xs1)]
  unfold kernelRun0_B
  dsimp only
  sl_unfold_words
  rw [View.canon_unit_zero offs_zero]
  simp only [View.readAt_eq_ld, h3.read_unread, h4.read_unread, h6.read_unread, h7.read_unread,
    View.ld_unit_zero (S := S128x128) offs_zero, View.readCov_unit_zero (S := S128x128) _ offs_zero]

end Cert.KernelIdeal.Tiles

end
-- ==== Proof.RuzickaSpec.lean ====
/-
  The Ruzicka (weighted Jaccard) similarity of the rows of two feature arrays, over the extended reals:
  entry (r, s) is the sum over the 256 features of the smaller of x (r, ·) and y (s, ·), divided by the sum of
  the larger plus a fixed positive word.  Each sum starts from the zero word, as a host sum does.

  The kernel walks the feature axis in two halves of 128 and adds the two half sums into an accumulator that
  starts at zero; over the extended reals addition is commutative and associative (there is no cancelling and
  no distributing here), so the accumulated value is the whole sum whatever the entries are — also at the
  infinities.  `tile_entry_eq` says so for one entry of one 128 × 128 tile of the result.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Ruzicka

open Idealize.ShloMosaic Idealize.ShloMosaic.ValueIdx

/-- The shape of each feature array, of the result, and of one tile. -/
abbrev Feat : Shape := ⟨2, ![1024, 256]⟩
abbrev Sim : Shape := ⟨2, ![1024, 1024]⟩
abbrev Tile : Shape := ⟨2, ![128, 128]⟩

/-- Feature `k` of the lower half of the feature axis, and of the upper half. -/
def lo (k : Fin 128) : Fin 256 := ⟨k.val, by omega⟩
def hi (k : Fin 128) : Fin 256 := ⟨128 + k.val, by omega⟩

/-- A sum over the 256 features is the sum over the lower half plus the sum over the upper half. -/
theorem sum_halves (f : Fin 256 → EReal) :
    ∑ k : Fin 256, f k = ∑ k : Fin 128, f (lo k) + ∑ k : Fin 128, f (hi k) :=
  Fin.sum_univ_add (a := 128) (b := 128) f

/-- The word the sums start from, and the word added to the denominator. -/
def zeroW : EReal := Ideal.ofBits .f32 0x00000000#32
def epsW : EReal := Ideal.ofBits .f32 0x322BCC77#32

/-- The numerator and the denominator's sum at rows `r` of `x` and `s` of `y`. -/
def minSum (x y : Feat.Idx → EReal) (r s : Fin 1024) : EReal :=
  zeroW + ∑ k : Fin 256, min (x (ix2 r k)) (y (ix2 s k))
def maxSum (x y : Feat.Idx → EReal) (r s : Fin 1024) : EReal :=
  zeroW + ∑ k : Fin 256, max (x (ix2 r k)) (y (ix2 s k))

/-- The similarity of row `r` of `x` and row `s` of `y`. -/
def simAt (x y : Feat.Idx → EReal) (r s : Fin 1024) : EReal :=
  Ideal.div (minSum x y r s) (maxSum x y r s + epsW)

/-- The whole result array. -/
def similarity (x y : Feat.Idx → EReal) : Sim.Idx → EReal := fun i => simAt x y (i 0) (i 1)

/-- One entry of a tile as the accumulation leaves it: from zero, the lower half's sum and then the upper
    half's are added, for the smaller and for the larger entries; the quotient is taken at the end. -/
def tileEntry (X0 Y0 X1 Y1 : Tile.Idx → EReal) (p q : Fin 128) : EReal :=
  Ideal.div ((zeroW + ∑ k : Fin 128, min (X0 (ix2 p k)) (Y0 (ix2 q k))) + ∑ k : Fin 128, min (X1 (ix2 p k)) (Y1 (ix2 q k)))
    (((zeroW + ∑ k : Fin 128, max (X0 (ix2 p k)) (Y0 (ix2 q k))) + ∑ k : Fin 128, max (X1 (ix2 p k)) (Y1 (ix2 q k))) + epsW)

/-- When the four tiles are the lower and upper feature halves of row `r` of `x` and row `s` of `y`, the
    accumulated entry is the similarity of those rows: the two half sums are the whole sum, re-associated. -/
theorem tile_entry_eq (x y : Feat.Idx → EReal) (r s : Fin 1024) (X0 Y0 X1 Y1 : Tile.Idx → EReal) (p q : Fin 128)
    (hX0 : ∀ k, X0 (ix2 p k) = x (ix2 r (lo k))) (hX1 : ∀ k, X1 (ix2 p k) = x (ix2 r (hi k)))
    (hY0 : ∀ k, Y0 (ix2 q k) = y (ix2 s (lo k))) (hY1 : ∀ k, Y1 (ix2 q k) = y (ix2 s (hi k))) :
    tileEntry X0 Y0 X1 Y1 p q = simAt x y r s := by
  unfold tileEntry simAt minSum maxSum
  rw [sum_halves (fun k => min (x (ix2 r k)) (y (ix2 s k))), sum_halves (fun k => max (x (ix2 r k)) (y (ix2 s k)))]
  simp only [hX0, hX1, hY0, hY1, add_assoc]

end Cert.Ruzicka

end
-- ==== Proof.RuzickaPayload.lean ====
/-
  What the kernel body's arithmetic computes, read entry by entry over the extended reals.

  The body loads a 128 × 128 tile of `x` (rows p, features k) and one of `y` (rows q, features k), spreads
  the first along a new middle axis and the second along a new leading axis, so that entry (p, q, k) of the
  two 128 × 128 × 128 blocks is x (p, k) and y (q, k); it takes the entrywise smaller (larger) of the two and
  sums over k, and adds that to what the accumulator held.  The final step divides the first accumulator by
  the second plus a fixed word.
-/
import proofs.«121181_j78718160601148_1_alg».proof.Proof.Gen.KernelIdeal.Skeleton
import proofs.«121181_j78718160601148_1_alg».proof.Proof.RuzickaSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Tiles

open Cert.KernelIdeal Cert.KernelIdeal.Gen Cert.Ruzicka

/-- Row `p` of the first tile, spread along the middle axis, read at an entry of the 128 × 128 × 128 block. -/
theorem rowsSpread (x : Vec Ideal S128x128 .f32) (p q k : Fin 128) :
    broadcastTo S128x128x128 (k0_pay3 x) broadcasts_S128x1x128_S128x128x128 (ix3 p q k) = x (ix2 p k) := by
  unfold k0_pay3
  refine (broadcastTo_apply _ broadcasts_S128x1x128_S128x128x128 (ix3 p q k) (ix3 p (⟨0, Nat.one_pos⟩ : Fin 1) k) (fun a => ?_)).trans ?_
  · match a with
    | ⟨0, _⟩ => show p.val = if (128 : Nat) = 1 then 0 else p.val; rw [if_neg (by decide)]
    | ⟨1, _⟩ => show 0 = if (1 : Nat) = 1 then 0 else q.val; rw [if_pos rfl]
    | ⟨2, _⟩ => show k.val = if (128 : Nat) = 1 then 0 else k.val; rw [if_neg (by decide)]
  · exact shapeCast_apply x shapeCasts_S128x128_S128x1x128 _ (ix2 p k) (by
      rw [Shape.rowMajor_val_two, Shape.rowMajor_val_three]
      show p.val * 128 + k.val = (p.val * 1 + 0) * 128 + k.val
      omega)

/-- Row `q` of the second tile, spread along the leading axis, read at an entry of the block. -/
theorem colsSpread (y : Vec Ideal S128x128 .f32) (p q k : Fin 128) :
    broadcastTo S128x128x128 (k0_pay4 y) broadcasts_S1x128x128_S128x128x128 (ix3 p q k) = y (ix2 q k) := by
  unfold k0_pay4
  refine (broadcastTo_apply _ broadcasts_S1x128x128_S128x128x128 (ix3 p q k) (ix3 (⟨0, Nat.one_pos⟩ : Fin 1) q k) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
    | ⟨2, _⟩ => show k.val = if (128 : Nat) = 1 then 0 else k.val; rw [if_neg (by decide)]
  · exact shapeCast_apply y shapeCasts_S128x128_S1x128x128 _ (ix2 q k) (by
      rw [Shape.rowMajor_val_two, Shape.rowMajor_val_three]
      show q.val * 128 + k.val = (0 * 128 + q.val) * 128 + k.val
      omega)

/-- The lane sum over the last axis of a 128 × 128 × 128 block, read at an entry: the sum over that axis. -/
theorem laneSum (v : FVec Ideal S128x128x128 .f32) (hφ : FKind.Formats .f32) (hacc : (0x00000000#32 : BitVec 32) = 0x00000000#32) (p q : Fin 128) :
    multiReduction (F := Ideal) .add [2] S128x128 v 0x00000000#32 reduces_S128x128x128_S128x128 hφ hacc (ix2 p q)
      = ∑ k : Fin 128, v (ix3 p q k) := by
  refine (Ideal.multiReduction_add_single v 0x00000000#32 reduces_S128x128x128_S128x128 hφ hacc (ix2 p q)).trans ?_
  refine Finset.sum_congr rfl fun k _ => congrArg v (funext fun a => Fin.ext ?_)
  match a with
  | ⟨0, _⟩ => rfl
  | ⟨1, _⟩ => rfl
  | ⟨2, _⟩ => rfl

/-- The tile the reset stores: the zero word at every entry. -/
theorem zeroTile_apply (j : S128x128.Idx) : k0_pay1 (F := Ideal) j = zeroW := by
  unfold k0_pay1
  exact congrFun (shapeCast_self _ _) j

theorem zeroTile'_apply (j : S128x128.Idx) : k0_pay2 (F := Ideal) j = zeroW := by
  unfold k0_pay2
  exact congrFun (shapeCast_self _ _) j

/-- What the first accumulator is left at: what it held plus, at entry (p, q), the sum over the tile's 128
    features of the smaller of x (p, ·) and y (q, ·). -/
theorem minAcc_apply (x y acc : Vec Ideal S128x128 .f32) (p q : Fin 128) :
    k0_pay5 x y acc (ix2 p q) = acc (ix2 p q) + ∑ k : Fin 128, min (x (ix2 p k)) (y (ix2 q k)) := by
  unfold k0_pay5
  refine (congrFun (shapeCast_self _ _) (ix2 p q)).trans ?_
  refine (addf_apply _ _ (ix2 p q)).trans ?_
  refine congrArg (acc (ix2 p q) + ·) ?_
  refine (laneSum _ _ _ p q).trans ?_
  refine Finset.sum_congr rfl fun k _ => ?_
  refine (minimumf_apply _ _ (ix3 p q k)).trans ?_
  rw [rowsSpread, colsSpread]

/-- The second accumulator likewise, with the larger of the two entries. -/
theorem maxAcc_apply (x y acc : Vec Ideal S128x128 .f32) (p q : Fin 128) :
    k0_pay6 x y acc (ix2 p q) = acc (ix2 p q) + ∑ k : Fin 128, max (x (ix2 p k)) (y (ix2 q k)) := by
  unfold k0_pay6
  refine (congrFun (shapeCast_self _ _) (ix2 p q)).trans ?_
  refine (addf_apply _ _ (ix2 p q)).trans ?_
  refine congrArg (acc (ix2 p q) + ·) ?_
  refine (laneSum _ _ _ p q).trans ?_
  refine Finset.sum_congr rfl fun k _ => ?_
  refine (maximumf_apply _ _ (ix3 p q k)).trans ?_
  rw [rowsSpread, colsSpread]

/-- The quotient the last feature step stores: numerator over denominator plus the fixed word. -/
theorem quotient_apply (a b : Vec Ideal S128x128 .f32) (j : S128x128.Idx) :
    k0_pay7 a b j = Ideal.div (a j) (b j + epsW) := by
  unfold k0_pay7
  rfl

end Cert.KernelIdeal.Tiles

end
-- ==== Proof.RuzickaKernel.lean ====
/-
  The kernel's result array, over the extended reals, is the Ruzicka similarity of the two argument arrays.

  The grid has 8 × 8 × 2 points, the feature step fastest: point t works on rows 128·(t / 16) … of `x`, rows
  128·(t / 2 mod 8) … of `y` and features 128·(t mod 2) ….  An even point resets the two accumulators and
  adds the lower feature half's sums; the odd point after it adds the upper half's and stores the quotient,
  which is then written back as tile (t / 16, t / 2 mod 8) of the result.  So every odd point writes a tile of
  one whole-array function, the similarity, and the 64 odd points' tiles cover the 1024 × 1024 result.
-/
import proofs.«121181_j78718160601148_1_alg».proof.Proof.RuzickaPieces
import proofs.«121181_j78718160601148_1_alg».proof.Proof.RuzickaPayload
import proofs.«121181_j78718160601148_1_alg».proof.Proof.Gen.KernelIdeal.Value
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.Ruzicka

variable (m : (ℓ : Loc nD τ sig) → Buf (Elt Ideal) ℓ) (ρ : Dev nD → PrngReg)

/-- The two input tiles at a grid point, and the two argument arrays, at their literal types. -/
abbrev xTile (c : Dev nD) (t : Fin cfg0.N) : Vec Ideal S128x128 .f32 := iblk m c 0 t
abbrev yTile (c : Dev nD) (t : Fin cfg0.N) : Vec Ideal S128x128 .f32 := iblk m c 1 t
abbrev xArr (c : Dev nD) : Vec Ideal S1024x256 .f32 := V m c main_arg0
abbrev yArr (c : Dev nD) : Vec Ideal S1024x256 .f32 := V m c main_arg1

/-- The point before `t` in the grid's order. -/
abbrev before (t : Fin cfg0.N) : Fin cfg0.N := ⟨t.val - 1, Nat.lt_of_le_of_lt (Nat.sub_le _ _) t.isLt⟩

/-- Which tile of each array a grid point works on: the three index maps in closed form. -/
theorem index_facts : ∀ t : Fin cfg0.N,
    win0_0.index t (0 : Fin 2) = t.val / 16 ∧ win0_0.index t (1 : Fin 2) = t.val % 2
    ∧ win0_1.index t (0 : Fin 2) = t.val / 2 % 8 ∧ win0_1.index t (1 : Fin 2) = t.val % 2
    ∧ win0_2.index t (0 : Fin 2) = t.val / 16 ∧ win0_2.index t (1 : Fin 2) = t.val / 2 % 8 :=
  (by decide +kernel : ∀ t : Fin grid0.N, _)

/-- Entry (p, k) of the tile of `x` at point `t` is `x` at row 128·(t / 16) + p, feature 128·(t mod 2) + k. -/
theorem xTile_apply (c : Dev nD) (t : Fin cfg0.N) (p k : Fin 128) (r : Fin 1024) (f : Fin 256)
    (hr : r.val = 128 * (t.val / 16) + p.val) (hf : f.val = 128 * (t.val % 2) + k.val) :
    xTile m c t (ix2 p k) = xArr m c (ix2 r f) := by
  obtain ⟨e0, e1, -, -, -, -⟩ := index_facts t
  show ((cfg0.win 0).blk t).view.read (Elt Ideal) (V m c (Pipeline.arrRef spec0 0)) (ix2 p k) = _
  rw [View.read_apply]
  show V m c main_arg0 (((cfg0.win 0).blk t).view.emb (ix2 p k)) = V m c main_arg0 (ix2 r f)
  refine congrArg (V m c main_arg0) (funext fun a => Fin.ext ?_)
  match a with
  | ⟨0, _⟩ => show win0_0.index t (0 : Fin 2) * 128 + 1 * p.val = r.val; omega
  | ⟨1, _⟩ => show win0_0.index t (1 : Fin 2) * 128 + 1 * k.val = f.val; omega

/-- Entry (q, k) of the tile of `y` at point `t` is `y` at row 128·(t / 2 mod 8) + q, feature 128·(t mod 2) + k. -/
theorem yTile_apply (c : Dev nD) (t : Fin cfg0.N) (q k : Fin 128) (s : Fin 1024) (f : Fin 256)
    (hs : s.val = 128 * (t.val / 2 % 8) + q.val) (hf : f.val = 128 * (t.val % 2) + k.val) :
    yTile m c t (ix2 q k) = yArr m c (ix2 s f) := by
  obtain ⟨-, -, e2, e3, -, -⟩ := index_facts t
  show ((cfg0.win 1).blk t).view.read (Elt Ideal) (V m c (Pipeline.arrRef spec0 1)) (ix2 q k) = _
  rw [View.read_apply]
  show V m c main_arg1 (((cfg0.win 1).blk t).view.emb (ix2 q k)) = V m c main_arg1 (ix2 s f)
  refine congrArg (V m c main_arg1) (funext fun a => Fin.ext ?_)
  match a with
  | ⟨0, _⟩ => show win0_1.index t (0 : Fin 2) * 128 + 1 * q.val = s.val; omega
  | ⟨1, _⟩ => show win0_1.index t (1 : Fin 2) * 128 + 1 * k.val = f.val; omega

/-- After an even point the first accumulator holds the zero tile plus that point's sums of the smaller entries; -/
theorem minAcc_afterEven (c : Dev nD) (n : ℕ) (hn : n < cfg0.N) (h0 : n % 2 = 0) :
    (outsAt0 m c n hn).2.1 = k0_pay5 (xTile m c ⟨n, hn⟩) (yTile m c ⟨n, hn⟩) (k0_pay1 (F := Ideal)) := by
  have h1 : ¬n % 2 = 1 := by omega
  show (outsAt0 m c (⟨n, hn⟩ : Fin cfg0.N).val (⟨n, hn⟩ : Fin cfg0.N).isLt).2.1 = _
  rw [outsAt0_A m c ⟨n, hn⟩ h0 h1]
  dsimp only
  exact firstStep_minAcc (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) ((hcond0_0 ⟨n, hn⟩).mpr h0) (fun h => h1 ((hcond0_1 ⟨n, hn⟩).mp h)) (iblk m c 0 ⟨n, hn⟩) (iblk m c 1 ⟨n, hn⟩)

/-- and the second the zero tile plus that point's sums of the larger entries. -/
theorem maxAcc_afterEven (c : Dev nD) (n : ℕ) (hn : n < cfg0.N) (h0 : n % 2 = 0) :
    (outsAt0 m c n hn).2.2 = k0_pay6 (xTile m c ⟨n, hn⟩) (yTile m c ⟨n, hn⟩) (k0_pay2 (F := Ideal)) := by
  have h1 : ¬n % 2 = 1 := by omega
  show (outsAt0 m c (⟨n, hn⟩ : Fin cfg0.N).val (⟨n, hn⟩ : Fin cfg0.N).isLt).2.2 = _
  rw [outsAt0_A m c ⟨n, hn⟩ h0 h1]
  dsimp only
  exact firstStep_maxAcc (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) ((hcond0_0 ⟨n, hn⟩).mpr h0) (fun h => h1 ((hcond0_1 ⟨n, hn⟩).mp h)) (iblk m c 0 ⟨n, hn⟩) (iblk m c 1 ⟨n, hn⟩)

/-- After an odd point the output tile holds the quotient of the two accumulators over both feature halves:
    the even point before it started them, this point added its half. -/
theorem tile_afterOdd (c : Dev nD) (t : Fin cfg0.N) (h1 : t.val % 2 = 1) :
    (outsAt0 m c t.val t.isLt).1
      = k0_pay7 (k0_pay5 (xTile m c t) (yTile m c t) (k0_pay5 (xTile m c (before t)) (yTile m c (before t)) (k0_pay1 (F := Ideal))))
          (k0_pay6 (xTile m c t) (yTile m c t) (k0_pay6 (xTile m c (before t)) (yTile m c (before t)) (k0_pay2 (F := Ideal)))) := by
  have h0 : ¬t.val % 2 = 0 := by omega
  rw [outsAt0_B m c t h0 h1]
  dsimp only
  refine (lastStep_tile (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.1 (outsAt0 m c (t.val - 1) (Nat.lt_of_le_of_lt (Nat.sub_le _ _) t.isLt)).2.2).trans ?_
  rw [minAcc_afterEven m c (t.val - 1) (Nat.lt_of_le_of_lt (Nat.sub_le _ _) t.isLt) (by omega),
    maxAcc_afterEven m c (t.val - 1) (Nat.lt_of_le_of_lt (Nat.sub_le _ _) t.isLt) (by omega)]

/-- What an odd point writes back is its tile of the similarity of the two argument arrays. -/
theorem flushed_eq (c : Dev nD) (t : Fin cfg0.N) (hf : (cfg0.win 2).flush t = true) :
    (dats m 0 c).flushed 2 t = ((cfg0.win 2).blk t).view.read (Elt Ideal) (similarity (xArr m c) (yArr m c)) := by
  have h1 : t.val % 2 = 1 := (flush0_2 t).mp hf
  have hN : t.val < 128 := lt_of_lt_of_eq t.isLt (show cfg0.N = 128 from N_0)
  obtain ⟨-, -, -, -, e4, e5⟩ := index_facts t
  rw [Cert.KernelIdeal.Value.flushed2, tile_afterOdd m c t h1]
  refine funext fun (j : S128x128.Idx) => ?_
  obtain ⟨p, q, rfl⟩ : ∃ p q : Fin 128, j = ix2 p q := ⟨j 0, j 1, eq_ix2 j⟩
  have hp : p.val < 128 := p.isLt
  have hq : q.val < 128 := q.isLt
  have hemb : ((cfg0.win 2).blk t).view.emb (ix2 p q)
      = ix2 (⟨128 * (t.val / 16) + p.val, by omega⟩ : Fin 1024) (⟨128 * (t.val / 2 % 8) + q.val, by omega⟩ : Fin 1024) :=
    funext fun a => Fin.ext (by
      match a with
      | ⟨0, _⟩ => show win0_2.index t (0 : Fin 2) * 128 + 1 * p.val = 128 * (t.val / 16) + p.val; omega
      | ⟨1, _⟩ => show win0_2.index t (1 : Fin 2) * 128 + 1 * q.val = 128 * (t.val / 2 % 8) + q.val; omega)
  show k0_pay7 (F := Ideal) _ _ (ix2 p q) = similarity (xArr m c) (yArr m c) (((cfg0.win 2).blk t).view.emb (ix2 p q))
  rw [hemb]
  refine (quotient_apply _ _ (ix2 p q)).trans ?_
  rw [minAcc_apply, minAcc_apply, maxAcc_apply, maxAcc_apply, zeroTile_apply, zeroTile'_apply]
  exact tile_entry_eq (xArr m c) (yArr m c) _ _ (xTile m c (before t)) (yTile m c (before t)) (xTile m c t) (yTile m c t) p q
    (fun k => xTile_apply m c (before t) p k _ (lo k) (by show 128 * (t.val / 16) + p.val = 128 * ((t.val - 1) / 16) + p.val; omega) (by show k.val = 128 * ((t.val - 1) % 2) + k.val; omega))
    (fun k => xTile_apply m c t p k _ (hi k) rfl (by show 128 + k.val = 128 * (t.val % 2) + k.val; omega))
    (fun k => yTile_apply m c (before t) q k _ (lo k) (by show 128 * (t.val / 2 % 8) + q.val = 128 * ((t.val - 1) / 2 % 8) + q.val; omega) (by show k.val = 128 * ((t.val - 1) % 2) + k.val; omega))
    (fun k => yTile_apply m c t q k _ (hi k) rfl (by show 128 + k.val = 128 * (t.val % 2) + k.val; omega))

/-- Every entry of the result lies in the tile some odd point writes back: entry (i₀, i₁) in that of the point
    16·(i₀ / 128) + 2·(i₁ / 128) + 1.  So the result array ends as the similarity of the argument arrays. -/
theorem result_eq (c : Dev nD) : (dats m 0 c).arrAt 2 cfg0.N = similarity (xArr m c) (yArr m c) :=
  (dats m 0 c).arrAt_eq_of_cover 2 (similarity (xArr m c) (yArr m c)) (flushed_eq m c) fun i => by
    have hi0 : (i 0).val < 1024 := (i 0).isLt
    have hi1 : (i 1).val < 1024 := (i 1).isLt
    have hb : 16 * ((i 0).val / 128) + 2 * ((i 1).val / 128) + 1 < cfg0.N := by
      rw [show cfg0.N = 128 from N_0]; omega
    obtain ⟨-, -, -, -, e4, e5⟩ := index_facts ⟨16 * ((i 0).val / 128) + 2 * ((i 1).val / 128) + 1, hb⟩
    refine ⟨⟨16 * ((i 0).val / 128) + 2 * ((i 1).val / 128) + 1, hb⟩, (flush0_2 _).mpr (by show (16 * ((i 0).val / 128) + 2 * ((i 1).val / 128) + 1) % 2 = 1; omega), ?_⟩
    show i ∈ ((View.whole main_v0).slice (win0_2.rect ⟨16 * ((i 0).val / 128) + 2 * ((i 1).val / 128) + 1, hb⟩)).set
    rw [View.set_slice_whole, Rect.mem_set_unit]
    intro a
    match a with
    | ⟨0, _⟩ =>
      show win0_2.index ⟨16 * ((i 0).val / 128) + 2 * ((i 1).val / 128) + 1, hb⟩ (0 : Fin 2) * 128 ≤ (i 0).val
        ∧ (i 0).val < win0_2.index ⟨16 * ((i 0).val / 128) + 2 * ((i 1).val / 128) + 1, hb⟩ (0 : Fin 2) * 128 + 128
      rw [e4]; dsimp only; omega
    | ⟨1, _⟩ =>
      show win0_2.index ⟨16 * ((i 0).val / 128) + 2 * ((i 1).val / 128) + 1, hb⟩ (1 : Fin 2) * 128 ≤ (i 1).val
        ∧ (i 1).val < win0_2.index ⟨16 * ((i 0).val / 128) + 2 * ((i 1).val / 128) + 1, hb⟩ (1 : Fin 2) * 128 + 128
      rw [e5]; dsimp only; omega

/-- The kernel's run: it terminates with the result array at the similarity of the argument arrays as
    launched, and the arguments unchanged. -/
theorem run : θ_run defs (onTc (τ := τ) (main (F := Ideal))) ⟨m, fun _ => 0, ρ⟩ fun r => ∀ c : Dev nD,
      r.2.mem ((c : Thread nD τ).loc main_v0) = similarity (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩)
    (Cert.KernelIdeal.Value.run_blocks m ρ)

end Cert.KernelIdeal.Tiles

end
-- ==== Proof.RuzickaReference.lean ====
/-
  The reference program's result, over the extended reals, is the Ruzicka similarity of its two arguments.

  The reference spreads `x` along a new middle axis and `y` along a new leading axis into two
  1024 × 1024 × 256 arrays whose entry (r, s, k) is x (r, k) and y (s, k), takes the entrywise smaller and
  larger, sums each over k from the zero word, adds the fixed word to the second sum and divides: entry by
  entry that is the similarity as the specification states it.
-/
import proofs.«121181_j78718160601148_1_alg».proof.Proof.Gen.ReferenceIdeal.Read
import proofs.«121181_j78718160601148_1_alg».proof.Proof.RuzickaSpec

noncomputable section

open scoped BigOperators
open Idealize.ShloMosaic Idealize.ShloMosaic.ValueIdx

namespace Cert.ReferenceIdeal.Spec

open Cert.ReferenceIdeal Cert.ReferenceIdeal.Read Cert.Ruzicka

/-- The reference's last stage is the similarity of the two argument arrays. -/
theorem reference_eq (x y : (⟨S1024x256, .f32⟩ : BufTy).Contents (Elt Ideal)) :
    val_main_v12 (F := Ideal) x y = similarity x y := by
  funext i
  obtain ⟨r, s, rfl⟩ : ∃ r s : Fin 1024, i = ix2 r s := ⟨i 0, i 1, eq_ix2 i⟩
  -- entry (r, s, k) of the spread arrays reads x (r, k) and y (s, k), under the smaller and under the larger
  have hxMin : ∀ k : Fin 256, idx_main_v0 (idx_main_v2 (idx_main_v5 (ix2 r s) k)) = ix2 r k := fun k =>
    funext fun a => by match a with | ⟨0, _⟩ => rfl | ⟨1, _⟩ => rfl
  have hyMin : ∀ k : Fin 256, idx_main_v1 (idx_main_v3 (idx_main_v5 (ix2 r s) k)) = ix2 s k := fun k =>
    funext fun a => by match a with | ⟨0, _⟩ => rfl | ⟨1, _⟩ => rfl
  have hxMax : ∀ k : Fin 256, idx_main_v0 (idx_main_v6 (idx_main_v9 (ix2 r s) k)) = ix2 r k := fun k =>
    funext fun a => by match a with | ⟨0, _⟩ => rfl | ⟨1, _⟩ => rfl
  have hyMax : ∀ k : Fin 256, idx_main_v1 (idx_main_v7 (idx_main_v9 (ix2 r s) k)) = ix2 s k := fun k =>
    funext fun a => by match a with | ⟨0, _⟩ => rfl | ⟨1, _⟩ => rfl
  rw [val_main_v12_apply, val_main_v5_apply, val_main_v11_apply, val_main_v9_apply, val_main_v10_apply]
  simp only [val_main_v4_apply, val_main_v8_apply, val_main_v2_apply, val_main_v3_apply, val_main_v6_apply,
    val_main_v7_apply, val_main_v0_apply, val_main_v1_apply, hxMin, hyMin, hxMax, hyMax]
  rfl

end Cert.ReferenceIdeal.Spec

end
-- ==== Proof.lean ====
/-
  The kernel computes, tile by tile, the Ruzicka (weighted Jaccard) similarity of the rows of two
  1024 × 256 arrays: entry (r, s) of the 1024 × 1024 result is the sum over the features of the smaller of
  x (r, ·) and y (s, ·) divided by the sum of the larger plus a fixed positive word.  It walks the 256
  features in two halves, adding each half's sums into two accumulators that start at zero, and divides
  after the second half.  The reference forms both sums over all 256 features at once and divides.

  Over the extended reals the two agree at every input: a sum over 256 features is the sum of its two
  halves, and adding the halves one after the other onto zero is a re-association of that sum; addition of
  extended reals is commutative and associative also at the infinities, so the precondition is not used.
  The smaller, the larger, the quotient and the two literal words are the same operations and the same
  words on both sides.  The idealized kernel is the kernel's own text read over the extended reals: no
  operation of it was rewritten, so there is nothing to preserve.

  RuzickaSpec states the similarity and the re-association; RuzickaPieces and RuzickaPayload read what one
  run of the body leaves and what its arithmetic is at an entry; RuzickaKernel reads the kernel's result
  array off its run; RuzickaReference reads the reference's.
-/
import proofs.«121181_j78718160601148_1_alg».proof.Defs
import proofs.«121181_j78718160601148_1_alg».proof.Proof.Gen.Kernel
import proofs.«121181_j78718160601148_1_alg».proof.Proof.Gen.Kernel.Skeleton
import proofs.«121181_j78718160601148_1_alg».proof.Proof.Gen.Kernel.Launch
import proofs.«121181_j78718160601148_1_alg».proof.Proof.Gen.Kernel.Points
import proofs.«121181_j78718160601148_1_alg».proof.Proof.Gen.Kernel.Frame
import proofs.«121181_j78718160601148_1_alg».proof.Proof.Gen.KernelIdeal
import proofs.«121181_j78718160601148_1_alg».proof.Proof.Gen.KernelIdeal.Skeleton
import proofs.«121181_j78718160601148_1_alg».proof.Proof.Gen.KernelIdeal.Launch
import proofs.«121181_j78718160601148_1_alg».proof.Proof.Gen.KernelIdeal.Points
import proofs.«121181_j78718160601148_1_alg».proof.Proof.Gen.KernelIdeal.Frame
import proofs.«121181_j78718160601148_1_alg».proof.Proof.Gen.ReferenceIdeal
import proofs.«121181_j78718160601148_1_alg».proof.Proof.Gen.KernelIdeal.Value
import proofs.«121181_j78718160601148_1_alg».proof.Proof.Gen.ReferenceIdeal.Run
import proofs.«121181_j78718160601148_1_alg».proof.Proof.Gen.ReferenceIdeal.Read
import proofs.«121181_j78718160601148_1_alg».proof.Proof.Gen.Pre_finite_inputs
import proofs.«121181_j78718160601148_1_alg».proof.Proof.RuzickaKernel
import proofs.«121181_j78718160601148_1_alg».proof.Proof.RuzickaReference
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's, from arguments that agree, are
    both the similarity of those arguments. -/
theorem algebraic : Cert.algebraic_KernelIdeal_ReferenceIdeal := by
  intro m ρ m' ρ' _ hagree
  refine ⟨fun c => Cert.Ruzicka.similarity (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Spec.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
